-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x128 : Shape := ⟨2, ![4096, 128]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 128#32
  let main_v18 : IVec S4096 32 := broadcastInDim S4096 ![] bcast_S_S4096 main_c_6
  let main_v19 : IVec S4096 1 := cmpi .slt main_arg2 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  main_v21

def fn {F : FTy → Type} [FloatOps F] (main_arg0 : FVec F S4x2048x4096 .f32) (main_arg1 : FVec F S4096x128 .f32) (main_arg2 : IVec S4096 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 1 := constantI S_ 1 1#1
  fn_part1 (F := F) main_arg2 main_v13 main_v15 main_c_5
-- ==== Kernel.lean ====
abbrev S4x2048x4096 : Shape := ⟨3, ![4, 2048, 4096]⟩
abbrev S4096x128 : Shape := ⟨2, ![4096, 128]⟩
abbrev S4096 : Shape := ⟨1, ![4096]⟩
abbrev S8192x4096 : Shape := ⟨2, ![8192, 4096]⟩
abbrev S_ : Shape := ⟨0, ![]⟩
abbrev S4096x1 : Shape := ⟨2, ![4096, 1]⟩
abbrev S1x128 : Shape := ⟨2, ![1, 128]⟩
abbrev S128x4096 : Shape := ⟨2, ![128, 4096]⟩
abbrev S1x4096 : Shape := ⟨2, ![1, 4096]⟩
abbrev S256x4096 : Shape := ⟨2, ![256, 4096]⟩
abbrev S256x128 : Shape := ⟨2, ![256, 128]⟩

abbrev nBuf : Space → Nat
  | .hbm => 33
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x128, .f32⟩
  | .hbm, ⟨2, _⟩ => ⟨S4096, .i32⟩
  | .hbm, ⟨3, _⟩ => ⟨S4096, .f32⟩
  | .hbm, ⟨4, _⟩ => ⟨S8192x4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x128, .f32⟩
  | .hbm, ⟨22, _⟩ => ⟨S4096x128, .bf16⟩
  | .hbm, ⟨23, _⟩ => ⟨S4096x1, .i32⟩
  | .hbm, ⟨24, _⟩ => ⟨S1x128, .i32⟩
  | .hbm, ⟨25, _⟩ => ⟨S4096x128, .i32⟩
  | .hbm, ⟨26, _⟩ => ⟨S4096x128, .i32⟩
  | .hbm, ⟨27, _⟩ => ⟨S4096x128, .i1⟩
  | .hbm, ⟨28, _⟩ => ⟨S4096x128, .bf16⟩
  | .hbm, ⟨29, _⟩ => ⟨S128x4096, .bf16⟩
  | .hbm, ⟨30, _⟩ => ⟨S1x4096, .f32⟩
  | .hbm, ⟨31, _⟩ => ⟨S8192x4096, .f32⟩
  | .hbm, ⟨32, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x128, .bf16⟩
  | .local _ .vmem, ⟨3, _⟩ => ⟨S128x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  transposes_S4096x128_S128x4096_1_0 : S4096x128.Transposes [1, 0] S128x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  gather_S4096x128_S4096x1_S4096x128_1_0_n_n_0_1_1128_wf : GatherDims.WF S4096x128 S4096x1 S4096x128 [1] [0] [] [0] [] 1 ![1, 128]
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .bf16 = 32 ∨ (Rect.block (s := S128x4096) S128x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x128 : Shape := ⟨2, ![4096, 128]⟩
abbrev S4096 : Shape := ⟨1, ![4096]⟩
abbrev S8192x4096 : Shape := ⟨2, ![8192, 4096]⟩
abbrev S_ : Shape := ⟨0, ![]⟩
abbrev S4096x1 : Shape := ⟨2, ![4096, 1]⟩
abbrev S8192x128 : Shape := ⟨2, ![8192, 128]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x128, .f32⟩
  | .hbm, ⟨2, _⟩ => ⟨S4096, .i32⟩
  | .hbm, ⟨3, _⟩ => ⟨S4096, .f32⟩
  | .hbm, ⟨4, _⟩ => ⟨S8192x4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x128, .f32⟩
  | .hbm, ⟨14, _⟩ => ⟨S8192x128, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  gather_S4096x128_S4096x1_S4096x128_1_0_n_n_0_1_1128_wf : GatherDims.WF S4096x128 S4096x1 S4096x128 [1] [0] [] [0] [] 1 ![1, 128]
  dot_S8192x4096_S4096x128_S8192x128_1_0_0_1_n_n_wf : DotDims.WF S8192x4096 S4096x128 S8192x128 [1] [0] [0] [1] [] []
  gather_S8192x128_S4096x1_S8192x4096_0_1_n_n_1_1_81921_wf : GatherDims.WF S8192x128 S4096x1 S8192x4096 [0] [1] [] [1] [] 1 ![8192, 1]

variable [Facts₀]

def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def gather_S8192x128_S4096x1_S8192x4096_0_1_n_n_1_1_81921 : GatherDims S8192x128 S4096x1 S8192x4096 where
  offsetDims := [0]
  collapsedSliceDims := [1]
  operandBatchingDims := []
  startIndicesBatchingDims := []
  startIndexMap := [1]
  indexVectorDim := 1
  sliceSizes := ![8192, 1]
  wf := gather_S8192x128_S4096x1_S8192x4096_0_1_n_n_1_1_81921_wf

class Facts : Prop extends Facts₀ where

variable [Facts]
-- ==== Proof.Layer.lean ====
/-
  The quantised linear layer, as one function of the argument arrays, and the law that makes a two-pass one-hot
  product a column selection.

  Every input column j carries an assignment a j; the layer's effective weight from input column j to output column n
  is the codebook entry in row a j and column a n, so with the activations flattened to rows
      out (t, n) = (sum over j of x (t, j) * codebook (a j, a n)) + bias n.
  The assignments are read as unsigned words and capped at the last row (4095) and the last column (127), which
  changes nothing on assignments below 128 and keeps the function total.

  A product of a row q with a 0/1 indicator column picks out one entry of q.  Splitting q as q + (q - q) and summing
  the two products gives the same entry when every q k is a real number: then q k - q k = 0.
-/
import Idealize.ShloMosaic.PureOps.Ideal
import Idealize.ShloMosaic.Lib.ValueIdx

noncomputable section

namespace Cert.VQ

open Idealize.ShloMosaic Idealize.ShloMosaic.ValueIdx

/-! ## Real-valued extended reals -/

/-- An extended real that is a real number (neither infinity). -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real numbers is a real number. -/
theorem IsReal.sum {ι : Type} (s : Finset ι) (f : ι → EReal) (h : ∀ i ∈ s, IsReal (f i)) : IsReal (∑ i ∈ s, f i) :=
  Finset.sum_induction f IsReal (fun _ _ => IsReal.add) IsReal.zero h

/-- A real number minus itself is zero (an infinity minus itself is not). -/
theorem IsReal.sub_self {x : EReal} (hx : IsReal x) : x - x = 0 := by
  obtain ⟨r, rfl⟩ := hx
  rw [← EReal.coe_sub, _root_.sub_self, EReal.coe_zero]

/-! ## Selection by an indicator column -/

/-- A row times an indicator column is the row's entry at the indicated place. -/
theorem sum_mul_indicator {K : Nat} (q oh : Fin K → EReal) (k0 : Fin K)
    (hoh : ∀ k, oh k = if k = k0 then 1 else 0) : ∑ k, q k * oh k = q k0 := by
  rw [Finset.sum_eq_single k0]
  · rw [hoh, if_pos rfl, mul_one]
  · intro k _ hk
    rw [hoh, if_neg hk, mul_zero]
  · intro h
    exact absurd (Finset.mem_univ _) h

/-- The two-pass product: the row itself and its residue q - q, each against the indicator column, add up to the row's
    entry at the indicated place when the row is real. -/
theorem two_pass_select {K : Nat} (q oh : Fin K → EReal) (k0 : Fin K) (hq : ∀ k, IsReal (q k))
    (hoh : ∀ k, oh k = if k = k0 then 1 else 0) :
    (∑ k, q k * oh k) + (∑ k, (q k - q k) * oh k) = q k0 := by
  rw [sum_mul_indicator q oh k0 hoh]
  have hres : ∑ k, (q k - q k) * oh k = 0 :=
    Finset.sum_eq_zero fun k _ => by rw [(hq k).sub_self, zero_mul]
  rw [hres, add_zero]

/-! ## The layer -/

/-- The flattened activations, the codebook, the assignments, the bias. -/
abbrev SX : Shape := ⟨2, ![8192, 4096]⟩
abbrev SQ : Shape := ⟨2, ![4096, 128]⟩
abbrev SA : Shape := ⟨1, ![4096]⟩

/-- The codebook row an input column's assignment names. -/
def rowOf (a : IVec SA 32) (j : Fin 4096) : Fin 4096 := ⟨min (a (ix1 j)).toNat 4095, by omega⟩

/-- The codebook column an output column's assignment names. -/
def colOf (a : IVec SA 32) (n : Fin 4096) : Fin 128 := ⟨min (a (ix1 n)).toNat 127, by omega⟩

/-- The projected activations: row t against the gathered codebook, at codebook column k. -/
def proj (xf : SX.Idx → EReal) (qv : SQ.Idx → EReal) (a : IVec SA 32) (t : Fin 8192) (k : Fin 128) : EReal :=
  ∑ j : Fin 4096, xf (ix2 t j) * qv (ix2 (rowOf a j) k)

/-- The layer's output on flattened rows. -/
def layer (xf : SX.Idx → EReal) (qv : SQ.Idx → EReal) (a : IVec SA 32) (b : SA.Idx → EReal) : SX.Idx → EReal :=
  fun i => proj xf qv a (i 0) (colOf a (i 1)) + b (ix1 (i 1))

/-- With real activations and a real codebook every projected activation is real. -/
theorem proj_isReal (xf : SX.Idx → EReal) (qv : SQ.Idx → EReal) (a : IVec SA 32)
    (hx : ∀ i, IsReal (xf i)) (hq : ∀ i, IsReal (qv i)) (t : Fin 8192) (k : Fin 128) : IsReal (proj xf qv a t k) :=
  IsReal.sum _ _ fun j _ => (hx _).mul (hq _)

/-- Assignments below 128, read as words: what the programs' index arithmetic leaves alone. -/
def InRange (a : IVec SA 32) : Prop := ∀ n : Fin 4096, (a (ix1 n)).toNat < 128

theorem rowOf_val {a : IVec SA 32} (ha : InRange a) (j : Fin 4096) : (rowOf a j).val = (a (ix1 j)).toNat := by
  have := ha j
  show min _ _ = _
  omega

theorem colOf_val {a : IVec SA 32} (ha : InRange a) (n : Fin 4096) : (colOf a n).val = (a (ix1 n)).toNat := by
  have := ha n
  show min _ _ = _
  omega

end Cert.VQ

end
-- ==== Proof.PreRead.lean ====
/-
  What the precondition says of the inputs.

  The printed precondition is the conjunction of five "all" tests, each a reduction by "and" of a pointwise comparison:
  |x| < +inf on the activations, the codebook and the bias, 0 <= a and a < 128 on the assignments (signed).  If the
  conjunction is 1 then each test is 1 at every index: an extended real whose absolute value is below +inf is a real
  number, and a 32-bit word that is signed-nonnegative and signed-below 128 is, read as an unsigned word, below 128.
-/
import proofs.«414625_j69415261438448_3_alg».proof.Pre_finite_inputs
import proofs.«414625_j69415261438448_3_alg».proof.Proof.Layer
import Idealize.ShloMosaic.Lib.ReduceAll
import Idealize.ShloMosaic.Lib.ValueIdx

noncomputable section

namespace Cert.VQ

open Idealize.ShloMosaic Idealize.ShloMosaic.ValueIdx

/-- The word the comparisons are made against is +inf. -/
theorem inf_word : Ideal.ofBits .f32 0x7F800000#32 = (⊤ : EReal) := by simp [Ideal.ofBits, Ideal.ieee]

/-- An extended real whose absolute value is below +inf is a real number. -/
theorem isReal_of_abs_lt_top {x : EReal} (h : max x (-x) < ⊤) : IsReal x := by
  induction x using EReal.rec with
  | bot => simp at h
  | coe r => exact ⟨r, rfl⟩
  | top => simp at h

/-- The same, as the printed comparison states it. -/
theorem isReal_of_test (x : Ideal .f32)
    (h : FloatOps.cmpf .olt (FloatOps.hostAbsf x) (Ideal.ofBits .f32 0x7F800000#32) = 1#1) : IsReal x := by
  rw [inf_word] at h
  refine isReal_of_abs_lt_top (x := x) ?_
  have h' : BitVec.ofBool (decide (max x (-x) < (⊤ : EReal))) = 1#1 := h
  revert h'
  by_cases hlt : max x (-x) < (⊤ : EReal)
  · exact fun _ => hlt
  · rw [decide_eq_false hlt]; exact fun h' => absurd h' (by decide)

/-- A word that is signed-nonnegative and signed-below 128 is below 128 as an unsigned word. -/
theorem word_lt_of_tests {a : BitVec 32} (h0 : IntOp.cmpi .sge a 0#32 = 1#1) (h1 : IntOp.cmpi .slt a 128#32 = 1#1) :
    a.toNat < 128 := by
  have e0 : (0#32 : BitVec 32).toInt = 0 := by decide
  have e1 : (128#32 : BitVec 32).toInt = 128 := by decide
  have k0 : (0#32 : BitVec 32).toInt ≤ a.toInt := by
    by_contra hc
    have : IntOp.cmpi .sge a 0#32 = 0#1 := by
      show BitVec.ofBool ((0#32 : BitVec 32).sle a) = 0#1
      rw [BitVec.sle, decide_eq_false hc]; rfl
    rw [this] at h0; exact absurd h0 (by decide)
  have k1 : a.toInt < (128#32 : BitVec 32).toInt := by
    by_contra hc
    have : IntOp.cmpi .slt a 128#32 = 0#1 := by
      show BitVec.ofBool (a.slt 128#32) = 0#1
      rw [BitVec.slt, decide_eq_false hc]; rfl
    rw [this] at h1; exact absurd h1 (by decide)
  rw [e0] at k0
  rw [e1] at k1
  have hc := BitVec.toInt_eq_toNat_cond a
  split_ifs at hc <;> omega

section
variable [Cert.Pre_finite_inputs.Facts]
open Cert.Pre_finite_inputs Cert.Pre_finite_inputs.Facts

instance : Subsingleton Cert.Pre_finite_inputs.S_.Idx := ⟨fun a b => funext fun d => d.elim0⟩

/-- THE PRECONDITION READ: real activations, a real codebook, assignments below 128. -/
theorem pre_read (x : FVec Ideal S4x2048x4096 .f32) (qv : FVec Ideal S4096x128 .f32) (a : IVec S4096 32)
    (b : FVec Ideal S4096 .f32) (h : fn (F := Ideal) x qv a b = fun _ => 1#1) :
    (∀ i, IsReal (x i)) ∧ (∀ i, IsReal (qv i)) ∧ InRange a := by
  have h0 := congrFun h ix0
  dsimp only [fn, fn_part1] at h0
  obtain ⟨h0, hlt⟩ := IntOp.andi_eq_one.1 h0
  obtain ⟨h0, hge⟩ := IntOp.andi_eq_one.1 h0
  obtain ⟨h0, _⟩ := IntOp.andi_eq_one.1 h0
  obtain ⟨hx, hq⟩ := IntOp.andi_eq_one.1 h0
  refine ⟨fun i => ?_, fun i => ?_, fun n => ?_⟩
  · exact isReal_of_test (x i) (Host.reduce_andi_all _ _ _ _ _ hx i)
  · exact isReal_of_test (qv i) (Host.reduce_andi_all _ _ _ _ _ hq i)
  · exact word_lt_of_tests (Host.reduce_andi_all _ _ _ _ _ hge (ix1 n)) (Host.reduce_andi_all _ _ _ _ _ hlt (ix1 n))

end

end Cert.VQ

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KernelBody.lean ====
/-
  The kernel body's store, read at an entry.

  At row p and column q of a block the body stores
      (sum over k of qm (p, k) * oh (k, q)) + (sum over k of (qm (p, k) - qm (p, k)) * oh (k, q)) + bias (0, q),
  where qm (p, k) = sum over j of x (p, j) * g (j, k): the first product of the activations' block with the gathered
  codebook, then the two passes of its high part and of its residue against the selection matrix, then the bias row
  broadcast down the rows.  At the exact values the changes of format are identities, so the high part is qm itself.
-/
import proofs.«414625_j69415261438448_3_alg».proof.Proof.Gen.KernelIdeal.Skeleton
import proofs.«414625_j69415261438448_3_alg».proof.Proof.LibPlainDot
import Idealize.ShloMosaic.Lib.Pipeline.Value
import Idealize.ShloMosaic.Lib.ValueIdx

noncomputable section

namespace Cert.VQ.Body

open Cert.KernelIdeal Cert.KernelIdeal.Gen Idealize.ShloMosaic Idealize.ShloMosaic.ValueIdx

/-- The body's two products have the plain dimension numbers. -/
theorem dot1_eq : dot_S256x4096_S4096x128_S256x128_1_0_0_1_n_n = DotDims.plain 256 4096 128 := rfl
theorem dot2_eq : dot_S256x128_S128x4096_S256x4096_1_0_0_1_n_n = DotDims.plain 256 128 4096 := rfl

/-- The bias row broadcast down a block's rows, at (p, q). -/
theorem bias_apply (x3 : S1x4096.Idx → EReal) (p : Fin 256) (q : Fin 4096) :
    broadcastTo S256x4096 x3 broadcasts_S1x4096_S256x4096 (ix2 p q) = x3 (ix2 (0 : Fin 1) q) :=
  broadcastTo_apply x3 _ (ix2 p q) (ix2 (0 : Fin 1) q) (fun a => by
    match a with
    | ⟨0, _⟩ => show 0 = if (1 : Nat) = 1 then 0 else _; rw [if_pos rfl]
    | ⟨1, _⟩ => show q.val = if (4096 : Nat) = 1 then 0 else _; rw [if_neg (by decide)]; rfl)

/-- The first product at (p, k). -/
def qm (x0 : S256x4096.Idx → EReal) (x1 : S4096x128.Idx → EReal) (p : Fin 256) (k : Fin 128) : EReal :=
  ∑ j : Fin 4096, x0 (ix2 p j) * x1 (ix2 j k)

/-- THE STORED VALUE at (p, q). -/
theorem pay_apply (x0 : Vec Ideal S256x4096 .f32) (x1 : Vec Ideal S4096x128 .bf16) (x2 : Vec Ideal S128x4096 .bf16)
    (x3 : Vec Ideal S1x4096 .f32) (p : Fin 256) (q : Fin 4096) :
    k0_pay1 (F := Ideal) x0 x1 x2 x3 (ix2 p q)
      = ((∑ k : Fin 128, qm x0 x1 p k * x2 (ix2 k q))
          + ∑ k : Fin 128, (qm x0 x1 p k - qm x0 x1 p k) * x2 (ix2 k q))
        + x3 (ix2 (0 : Fin 1) q) := by
  unfold k0_pay1
  simp only [shapeCast_self]
  rw [addf_apply, addf_apply, bias_apply, dot2_eq, dot1_eq,
    PlainDot.matmul_zero_apply 256 128 4096, PlainDot.matmul_zero_apply 256 128 4096]
  simp only [truncf_apply, subf_apply, PlainDot.matmul_zero_apply 256 4096 128, qm]

end Cert.VQ.Body

end
-- ==== Proof.Words.lean ====
/-
  Index arithmetic on small words.

  Both programs massage the assignment words before indexing with them: the kernel clips them into [0, 127], jnp's
  indexing adds the axis length to a negative index, and a gather reads its start index as a signed integer and clamps
  it into the axis.  On a word below 128 each of these is the identity, and the signed reading is the unsigned one.
-/
import Idealize.ShloMosaic.PureOps
import Idealize.ShloMosaic.Lib.ValueIdx
import Idealize.ShloMosaic.Lib.StableHlo.Predicate

noncomputable section

namespace Cert.VQ

open Idealize.ShloMosaic Idealize.ShloMosaic.ValueIdx Idealize.ShloMosaic.StableHlo

/-- A word below 128 reads the same signed and unsigned. -/
theorem toInt_small {w : BitVec 32} (h : w.toNat < 128) : w.toInt = (w.toNat : Int) :=
  Predicate.toInt_eq_toNat_of_lt (by omega)

/-- So its signed reading, as a natural number, is its unsigned one. -/
theorem toInt_toNat_small {w : BitVec 32} (h : w.toNat < 128) : w.toInt.toNat = w.toNat := by
  rw [toInt_small h]; exact Int.toNat_natCast _

/-- It is not signed-below zero. -/
theorem slt_zero_small {w : BitVec 32} (h : w.toNat < 128) : w.slt 0#32 = false := by
  have e0 : (0#32 : BitVec 32).toInt = 0 := by decide
  rw [BitVec.slt, toInt_small h, e0]
  exact decide_eq_false (by omega)

/-- And 127 is not signed-below it. -/
theorem slt_max_small {w : BitVec 32} (h : w.toNat < 128) : (127#32 : BitVec 32).slt w = false := by
  have e1 : (127#32 : BitVec 32).toInt = 127 := by decide
  rw [BitVec.slt, toInt_small h, e1]
  exact decide_eq_false (by omega)

/-- Clipping a word below 128 into [0, 127] leaves it. -/
theorem clip_small {w : BitVec 32} (h : w.toNat < 128) : IntOp.minsi 127#32 (IntOp.maxsi 0#32 w) = w := by
  have e1 : IntOp.maxsi 0#32 w = w := by
    unfold IntOp.maxsi; rw [slt_zero_small h]; rfl
  rw [e1]
  unfold IntOp.minsi; rw [slt_max_small h]; rfl

/-- jnp's normalisation of a negative index (add the axis length c) leaves a word below 128. -/
theorem norm_small {w : BitVec 32} (h : w.toNat < 128) (c : BitVec 32) :
    Scalar.select (IntOp.cmpi .slt w 0#32) (IntOp.addi w c) w = w := by
  have e : IntOp.cmpi .slt w 0#32 = 0#1 := by
    unfold IntOp.cmpi; rw [slt_zero_small h]; rfl
  rw [e]; exact select_zero _ _

/-- The bit of an equality test against position k, as a number: 1 where the word is k, else 0. -/
theorem onehot_word {w : BitVec 32} (h : w.toNat < 128) (k : Fin 128) :
    ((((IntOp.cmpi .eq w (BitVec.ofNat 32 k.val)).toNat : ℕ) : ℝ) : EReal) = if k.val = w.toNat then 1 else 0 := by
  have hk : (BitVec.ofNat 32 k.val).toNat = k.val := by
    rw [BitVec.toNat_ofNat]; exact Nat.mod_eq_of_lt (by have := k.isLt; omega)
  by_cases e : k.val = w.toNat
  · have hw : w = BitVec.ofNat 32 k.val := BitVec.eq_of_toNat_eq (by rw [hk]; exact e.symm)
    rw [if_pos e, Predicate.cmpi_eq_iff.2 hw, show (1#1 : BitVec 1).toNat = 1 from rfl, Nat.cast_one, EReal.coe_one]
  · have hb : IntOp.cmpi .eq w (BitVec.ofNat 32 k.val) = 0#1 :=
      eq_zero_of_ne_one fun h1 => e (by rw [Predicate.cmpi_eq_iff.1 h1, hk])
    rw [if_neg e, hb, show (0#1 : BitVec 1).toNat = 0 from rfl, Nat.cast_zero, EReal.coe_zero]

end Cert.VQ

end
-- ==== Proof.LibGatherRows.lean ====
/-
  A `stablehlo.gather` that takes whole rows: what `x[idx]` lowers to when `x` has two or three axes and `idx` is a
  list of positions on the first.  The start indices are the list as an [n × 1] column; the operand's first axis is
  collapsed and start-indexed, its other axes are offset axes taken whole.  Result row `j` is the operand's row at
  the `j`-th start index read as a signed integer and clamped into the rows that exist (StableHLO's clamp): a negative
  index reads row 0, one past the end reads the last row.
-/
import Idealize.ShloMosaic.Lib.ValueIdx

noncomputable section

namespace Cert.GatherRows

open Idealize.ShloMosaic Idealize.ShloMosaic.ValueIdx

/-- Rows of a matrix: `[N, C]` at `[n, 1]` start indices gives `[n, C]`; entry `(j, k)` is the operand's at
    (clamped start index `j`, `k`).  The hypotheses are the printed dimension numbers, each by `rfl`. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil
  -- the result's one batch axis is its first
  have hbd : d.batchDims = [0] := by
    show (List.finRange 2).filter (· ∉ d.offsetDims) = _
    rw [hoff]; rfl
  match a with
  | ⟨0, _⟩ =>
    -- the row axis: collapsed and start-indexed, so no offset or batching part, a slice of one row, and the start
    -- index clamped into the rows; the start index read is the column's entry at the result's row
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: an offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

/-- Rows of a stack of matrices: `[N, L, C]` at `[n, 1]` start indices gives `[n, L, C]`; entry `(j, l, k)` is the
    operand's at (clamped start index `j`, `l`, `k`). -/
theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil
  -- the result's one batch axis is its first; the operand's kept axes are its second and third
  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl
  -- an operand axis that is kept and not start-indexed reads the result's coordinate on the offset axis in its position
  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>
    -- the row axis: collapsed and start-indexed, so no offset or batching part, a slice of one row, and the start
    -- index clamped into the rows; the start index read is the column's entry at the result's row
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>
    -- the second axis: the first of the two offset axes
    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>
    -- the third axis: the second of the two offset axes
    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.KernelHost.lean ====
/-
  What the kernel's region finds in its four input arrays.

  Before the launch the host flattens the activations to rows, clips the assignments into [0, 127], gathers the codebook
  rows they name (through jnp's normalisation of negative indices), builds the 0/1 selection matrix oh (k, n) = [a n = k]
  by comparing the clipped assignments with a column counter and transposing, and lays the bias out as one row.  On
  assignments below 128 the clip and the normalisation are identities, so the gathered codebook's row j is the
  codebook's row a j, and the selection matrix's column n is the indicator of a n.
-/
import proofs.«414625_j69415261438448_3_alg».proof.Proof.Gen.KernelIdeal.Frame
import proofs.«414625_j69415261438448_3_alg».proof.Proof.Layer
import proofs.«414625_j69415261438448_3_alg».proof.Proof.Words
import proofs.«414625_j69415261438448_3_alg».proof.Proof.LibGatherRows
import Idealize.ShloMosaic.Lib.StableHlo.Run
import Idealize.ShloMosaic.Lib.Pipeline.Value
import Idealize.ShloMosaic.Lib.ValueIdx
import Idealize.ShloMosaic.PureOps.Ideal

noncomputable section

namespace Cert.VQ.KHost

open Cert.KernelIdeal Cert.KernelIdeal.Gen Idealize.ShloMosaic Idealize.ShloMosaic.TcCoe Idealize.SL.Sem
open Idealize.ShloMosaic.StableHlo Idealize.ShloMosaic.ValueIdx

/-! ## The host prefix as functions of the arguments -/

/-- The assignments clipped into [0, 127]. -/
def clipA (a : IVec S4096 32) : IVec S4096 32 :=
  minsi (broadcastInDim S4096 ![] bcast_S_S4096 (constantI S_ 32 127#32))
    (maxsi (broadcastInDim S4096 ![] bcast_S_S4096 (constantI S_ 32 0#32)) a)

/-- The clipped assignments after jnp's treatment of a negative index: 4096 added where below zero. -/
def normA (a : IVec S4096 32) : IVec S4096 32 :=
  select (cmpi .slt (clipA a) (broadcastInDim S4096 ![] bcast_S_S4096 (constantI S_ 32 0#32)))
    (addi (clipA a) (broadcastInDim S4096 ![] bcast_S_S4096 (constantI S_ 32 4096#32))) (clipA a)

/-- The gathered codebook the region is launched on. -/
def gathered (qv : FVec Ideal S4096x128 .f32) (a : IVec S4096 32) : FVec Ideal S4096x128 .bf16 :=
  truncf .bf16 (Host.gather gather_S4096x128_S4096x1_S4096x128_1_0_n_n_0_1_1128 qv
    (broadcastInDim S4096x1 ![0] bcast_S4096_S4096x1_0 (normA a))) bitsLt_bf16_f32

/-- The selection matrix the region is launched on: the clipped assignments against a column counter, transposed. -/
def onehotT (a : IVec S4096 32) : FVec Ideal S128x4096 .bf16 :=
  transpose S128x4096 [1, 0]
    (uitofp .bf16 (cmpi .eq
      (broadcastInDim S4096x128 ![0, 1] bcast_S4096x1_S4096x128_0_1 (broadcastInDim S4096x1 ![0] bcast_S4096_S4096x1_0 (clipA a)))
      (broadcastInDim S4096x128 ![0, 1] bcast_S1x128_S4096x128_0_1 (iotaInDim S1x128 32 1))))
    transposes_S4096x128_S128x4096_1_0

variable (m : (ℓ : Loc nD τ sig) → Buf (Elt Ideal) ℓ)

/-- The flattened activations. -/
theorem V_x (c : Dev nD) : (V m c main_v0 : S8192x4096.Idx → EReal)
    = shapeCast S8192x4096 (m ((c : Thread nD τ).loc main_arg0)) shapeCasts_S4x2048x4096_S8192x4096 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The bias as one row. -/
theorem V_b (c : Dev nD) : (V m c main_v12 : S1x4096.Idx → EReal)
    = shapeCast S1x4096 (m ((c : Thread nD τ).loc main_arg3)) shapeCasts_S4096_S1x4096 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The selection matrix. -/
theorem V_oh (c : Dev nD) : (V m c main_v11 : S128x4096.Idx → EReal)
    = onehotT (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The gathered codebook. -/
theorem V_g (c : Dev nD) : (V m c main_v9 : S4096x128.Idx → EReal)
    = gathered (m ((c : Thread nD τ).loc main_arg1)) (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-! ## Each read at an entry -/

theorem clipA_apply {a : IVec S4096 32} (ha : InRange a) (n : Fin 4096) : clipA a (ix1 n) = a (ix1 n) := by
  show IntOp.minsi 127#32 (IntOp.maxsi 0#32 (a (ix1 n))) = _
  exact clip_small (ha n)

theorem normA_apply {a : IVec S4096 32} (ha : InRange a) (n : Fin 4096) : normA a (ix1 n) = a (ix1 n) := by
  show Scalar.select (IntOp.cmpi .slt (clipA a (ix1 n)) 0#32) (IntOp.addi (clipA a (ix1 n)) 4096#32) (clipA a (ix1 n)) = _
  rw [clipA_apply ha n]
  exact norm_small (ha n) _

/-- A vector as a one-column matrix, at (j, 0). -/
theorem col_apply {α : Type} (v : S4096.Idx → α) (j : Fin 4096) :
    broadcastInDim S4096x1 ![0] bcast_S4096_S4096x1_0 v (ix2 j (0 : Fin 1)) = v (ix1 j) :=
  broadcastInDim_apply _ _ v _ (ix1 j) (fun a => match a with
    | ⟨0, _⟩ => by show j.val = if (4096 : Nat) = 1 then 0 else j.val; rw [if_neg (by decide)])

/-- That column repeated along 128 columns, at (n, k). -/
theorem rows_apply {α : Type} (v : S4096x1.Idx → α) (n : Fin 4096) (k : Fin 128) :
    broadcastInDim S4096x128 ![0, 1] bcast_S4096x1_S4096x128_0_1 v (ix2 n k) = v (ix2 n (0 : Fin 1)) :=
  broadcastInDim_apply _ _ v _ (ix2 n (0 : Fin 1)) (fun a => match a with
    | ⟨0, _⟩ => by show n.val = if (4096 : Nat) = 1 then 0 else n.val; rw [if_neg (by decide)]
    | ⟨1, _⟩ => by show 0 = if (1 : Nat) = 1 then 0 else k.val; rw [if_pos rfl])

/-- The column counter repeated down 4096 rows, at (n, k). -/
theorem counter_apply (n : Fin 4096) (k : Fin 128) :
    broadcastInDim S4096x128 ![0, 1] bcast_S1x128_S4096x128_0_1 (iotaInDim S1x128 32 1) (ix2 n k) = BitVec.ofNat 32 k.val :=
  (broadcastInDim_apply _ _ (iotaInDim S1x128 32 1) _ (ix2 (0 : Fin 1) k) (fun a => match a with
    | ⟨0, _⟩ => by show 0 = if (1 : Nat) = 1 then 0 else n.val; rw [if_pos rfl]
    | ⟨1, _⟩ => by show k.val = if (128 : Nat) = 1 then 0 else k.val; rw [if_neg (by decide)])).trans rfl

/-- ROW j OF THE GATHERED CODEBOOK is the codebook's row a j. -/
theorem gathered_apply (qv : FVec Ideal S4096x128 .f32) {a : IVec S4096 32} (ha : InRange a) (j : Fin 4096) (k : Fin 128) :
    gathered qv a (ix2 j k) = qv (ix2 (rowOf a j) k) := by
  show Host.gather gather_S4096x128_S4096x1_S4096x128_1_0_n_n_0_1_1128 qv
    (broadcastInDim S4096x1 ![0] bcast_S4096_S4096x1_0 (normA a)) (ix2 j k) = _
  rw [Cert.GatherRows.gather_rows2 (by decide) gather_S4096x128_S4096x1_S4096x128_1_0_n_n_0_1_1128 rfl rfl rfl rfl rfl qv _ j k]
  refine congrArg qv (congrArg (fun r => ix2 r k) (Fin.ext ?_))
  show min (broadcastInDim S4096x1 ![0] bcast_S4096_S4096x1_0 (normA a) (ix2 j (0 : Fin 1))).toInt.toNat (4096 - 1)
    = min (a (ix1 j)).toNat 4095
  rw [col_apply, normA_apply ha j, toInt_toNat_small (ha j)]

/-- COLUMN n OF THE SELECTION MATRIX is the indicator of a n. -/
theorem onehot_apply {a : IVec S4096 32} (ha : InRange a) (k : Fin 128) (n : Fin 4096) :
    onehotT a (ix2 k n) = if k = colOf a n then (1 : EReal) else 0 := by
  unfold onehotT
  rw [transpose_apply [1, 0] _ transposes_S4096x128_S128x4096_1_0 (ix2 k n) (ix2 n k)
    (fun b => by match b with | ⟨0, _⟩ => rfl | ⟨1, _⟩ => rfl)]
  show ((((IntOp.cmpi .eq
      (broadcastInDim S4096x128 ![0, 1] bcast_S4096x1_S4096x128_0_1 (broadcastInDim S4096x1 ![0] bcast_S4096_S4096x1_0 (clipA a)) (ix2 n k))
      (broadcastInDim S4096x128 ![0, 1] bcast_S1x128_S4096x128_0_1 (iotaInDim S1x128 32 1) (ix2 n k))).toNat : ℕ) : ℝ) : EReal) = _
  rw [rows_apply, col_apply, counter_apply, clipA_apply ha n, onehot_word (ha n) k]
  exact if_congr (by rw [Fin.ext_iff, colOf_val ha n]) rfl rfl

/-- The bias row at (0, q). -/
theorem biasrow_apply (b : S4096.Idx → EReal) (q : Fin 4096) :
    shapeCast S1x4096 b shapeCasts_S4096_S1x4096 (ix2 (0 : Fin 1) q) = b (ix1 q) :=
  shapeCast_apply b _ _ (ix1 q) (by
    rewrite [Shape.rowMajor_val_one, Shape.rowMajor_val_two]
    show q.val = 0 * 4096 + q.val
    omega)

end Cert.VQ.KHost

end
-- ==== Proof.KernelArray.lean ====
/-
  The kernel's result array.

  Grid point t works on rows 256 t .. 256 t + 255 of the flattened activations and on the whole gathered codebook,
  selection matrix and bias row, and writes rows 256 t .. 256 t + 255 of the result.  By the stored value at an entry,
  the gathered codebook's and the selection matrix's entries, and the two-pass selection law, what it writes is those
  rows of the layer; the 32 row blocks tile the result, so the result array ends holding the layer, and the reshape
  after the region lays it out as [4, 2048, 4096].
-/
import proofs.«414625_j69415261438448_3_alg».proof.Proof.Gen.KernelIdeal.Frame
import proofs.«414625_j69415261438448_3_alg».proof.Proof.Layer
import proofs.«414625_j69415261438448_3_alg».proof.Proof.KernelBody
import proofs.«414625_j69415261438448_3_alg».proof.Proof.KernelHost
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.VQ.KArray

open Cert.KernelIdeal Cert.KernelIdeal.Gen Idealize.ShloMosaic.ValueIdx

/-! ## One block's stored value is the layer's -/

/-- A block of the body's stores, over any four loaded blocks that read as: rows r0 .. r0 + 255 of real activations xf,
    the codebook rows named by the assignments, the indicator columns of the assignments, the bias row. -/
theorem block_value (xf : S8192x4096.Idx → EReal) (qv : S4096x128.Idx → EReal) (a : IVec S4096 32) (b : S4096.Idx → EReal)
    (hx : ∀ i, IsReal (xf i)) (hq : ∀ i, IsReal (qv i))
    (x0 : Vec Ideal S256x4096 .f32) (x1 : Vec Ideal S4096x128 .bf16) (x2 : Vec Ideal S128x4096 .bf16) (x3 : Vec Ideal S1x4096 .f32)
    (r0 : Nat)
    (h0 : ∀ (y : S256x4096.Idx) (k : S8192x4096.Idx), (k 0).val = r0 + (y 0).val → (k 1).val = (y 1).val → x0 y = xf k)
    (h1 : ∀ (j : Fin 4096) (k : Fin 128), x1 (ix2 j k) = qv (ix2 (rowOf a j) k))
    (h2 : ∀ (k : Fin 128) (n : Fin 4096), x2 (ix2 k n) = if k = colOf a n then (1 : EReal) else 0)
    (h3 : ∀ n : Fin 4096, x3 (ix2 (0 : Fin 1) n) = b (ix1 n))
    (y : S256x4096.Idx) (i : S8192x4096.Idx) (hi0 : (i 0).val = r0 + (y 0).val) (hi1 : (i 1).val = (y 1).val) :
    k0_pay1 (F := Ideal) x0 x1 x2 x3 y = layer xf qv a b i := by
  obtain ⟨p, q, rfl⟩ : ∃ (p : Fin 256) (q : Fin 4096), y = ix2 p q := ⟨y 0, y 1, eq_ix2 y⟩
  have hq1 : i 1 = q := Fin.ext hi1
  rw [Body.pay_apply]
  have hqm : ∀ k, Body.qm x0 x1 p k = proj xf qv a (i 0) k := fun k => by
    unfold Body.qm proj
    exact Finset.sum_congr rfl fun j _ => by rw [h0 (ix2 p j) (ix2 (i 0) j) hi0 rfl, h1]
  simp only [hqm]
  rw [two_pass_select (fun k => proj xf qv a (i 0) k) (fun k => x2 (ix2 k q)) (colOf a q)
    (fun k => proj_isReal xf qv a hx hq (i 0) k) (fun k => h2 k q), h3]
  unfold layer
  rw [hq1]

variable (m : (ℓ : Loc nD τ sig) → Buf (Elt Ideal) ℓ) (ρ : Dev nD → PrngReg)

/-! ## The blocks the body is run on -/

theorem hz : (![0, 0] : Fin 2 → Nat) = fun _ => 0 := funext fun a => by fin_cases a <;> rfl

/-- The block indices over the grid: the activations and the result move down one row block per point, the other three
    windows stay on their whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activations' block at point t is rows 256 t .. 256 t + 255. -/
theorem xblk_apply (c : Dev nD) (t : Fin cfg0.N) (y : S256x4096.Idx) (k : S8192x4096.Idx)
    (hk0 : (k 0).val = 256 * t.val + (y 0).val) (hk1 : (k 1).val = (y 1).val) :
    (iblk m c 0 t : Vec Ideal S256x4096 .f32) y = (V m c main_v0 : S8192x4096.Idx → EReal) k := by
  obtain ⟨e0, e1, -⟩ := idx_facts t
  unfold iblk
  rw [View.read_apply]
  show V m c main_v0 _ = V m c main_v0 _
  congr 1
  funext d
  apply Fin.ext
  match d with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- The gathered codebook's block is the whole array. -/
theorem gblk_apply (c : Dev nD) (t : Fin cfg0.N) (y : S4096x128.Idx) :
    (iblk m c 1 t : Vec Ideal S4096x128 .bf16) y = (V m c main_v9 : S4096x128.Idx → EReal) y := by
  obtain ⟨-, -, e0, e1, -⟩ := idx_facts t
  unfold iblk
  rw [View.read_apply]
  show V m c main_v9 _ = V m c main_v9 _
  congr 1
  funext d
  apply Fin.ext
  match d with
  | ⟨0, _⟩ => show win0_1.index t 0 * 4096 + 1 * (y 0).val = (y 0).val; rw [e0]; omega
  | ⟨1, _⟩ => show win0_1.index t 1 * 128 + 1 * (y 1).val = (y 1).val; rw [e1]; omega

/-- The selection matrix's block is the whole array. -/
theorem ohblk_apply (c : Dev nD) (t : Fin cfg0.N) (y : S128x4096.Idx) :
    (iblk m c 2 t : Vec Ideal S128x4096 .bf16) y = (V m c main_v11 : S128x4096.Idx → EReal) y := by
  obtain ⟨-, -, -, -, e0, e1, -⟩ := idx_facts t
  unfold iblk
  rw [View.read_apply]
  show V m c main_v11 _ = V m c main_v11 _
  congr 1
  funext d
  apply Fin.ext
  match d with
  | ⟨0, _⟩ => show win0_2.index t 0 * 128 + 1 * (y 0).val = (y 0).val; rw [e0]; omega
  | ⟨1, _⟩ => show win0_2.index t 1 * 4096 + 1 * (y 1).val = (y 1).val; rw [e1]; omega

/-- The bias row's block is the whole row. -/
theorem bblk_apply (c : Dev nD) (t : Fin cfg0.N) (y : S1x4096.Idx) :
    (iblk m c 3 t : Vec Ideal S1x4096 .f32) y = (V m c main_v12 : S1x4096.Idx → EReal) y := by
  obtain ⟨-, -, -, -, -, -, e0, e1, -⟩ := idx_facts t
  unfold iblk
  rw [View.read_apply]
  show V m c main_v12 _ = V m c main_v12 _
  congr 1
  funext d
  apply Fin.ext
  match d with
  | ⟨0, _⟩ => show win0_3.index t 0 * 1 + 1 * (y 0).val = (y 0).val; rw [e0]; omega
  | ⟨1, _⟩ => show win0_3.index t 1 * 4096 + 1 * (y 1).val = (y 1).val; rw [e1]; omega

/-! ## The result array -/

/-- What the precondition gives on core c: real activations, a real codebook, assignments below 128. -/
def Inputs (c : Dev nD) : Prop :=
  (∀ i, IsReal ((m ((c : Thread nD τ).loc main_arg0) : S4x2048x4096.Idx → EReal) i))
    ∧ (∀ i, IsReal ((m ((c : Thread nD τ).loc main_arg1) : S4096x128.Idx → EReal) i))
    ∧ InRange (m ((c : Thread nD τ).loc main_arg2))

/-- The layer of the arrays the region finds. -/
abbrev result (c : Dev nD) : S8192x4096.Idx → EReal :=
  layer (V m c main_v0) (m ((c : Thread nD τ).loc main_arg1)) (m ((c : Thread nD τ).loc main_arg2))
    (m ((c : Thread nD τ).loc main_arg3))

/-- WHAT POINT t WRITES BACK is its row block of the layer. -/
theorem flushed_eq (c : Dev nD) (hin : Inputs m c) (t : Fin cfg0.N) :
    (dats m 0 c).flushed 4 t = ((cfg0.win 4).blk t).view.read (Elt Ideal) (result m c) := by
  obtain ⟨hx, hq, ha⟩ := hin
  show (cfg0.win 4).cut (grid0.coords t) ((dats m 0 c).after 4 t) = _
  rw [after0_4]
  unfold out0_4
  rw [View.canon_unit_zero hz]
  simp only [View.ld_unit_zero (S := S256x4096) hz, View.ld_unit_zero (S := S4096x128) hz,
    View.ld_unit_zero (S := S128x4096) hz, View.ld_unit_zero (S := S1x4096) hz]
  obtain ⟨-, -, -, -, -, -, -, -, e8, e9⟩ := idx_facts t
  funext y
  show k0_pay1 (F := Ideal) (iblk m c 0 t) (iblk m c 1 t) (iblk m c 2 t) (iblk m c 3 t) y
    = result m c (((cfg0.win 4).blk t).view.emb y)
  refine block_value (V m c main_v0) _ _ _ (fun i => ?_) hq (iblk m c 0 t) (iblk m c 1 t) (iblk m c 2 t) (iblk m c 3 t)
    (256 * t.val) (fun y k h0 h1 => xblk_apply m c t y k h0 h1)
    (fun j k => (gblk_apply m c t (ix2 j k)).trans ((congrFun (KHost.V_g m c) (ix2 j k)).trans (KHost.gathered_apply _ ha j k)))
    (fun k n => (ohblk_apply m c t (ix2 k n)).trans ((congrFun (KHost.V_oh m c) (ix2 k n)).trans (KHost.onehot_apply ha k n)))
    (fun n => (bblk_apply m c t (ix2 (0 : Fin 1) n)).trans ((congrFun (KHost.V_b m c) (ix2 (0 : Fin 1) n)).trans (KHost.biasrow_apply _ n)))
    y _ ?_ ?_
  · rw [KHost.V_x]
    unfold shapeCast
    exact hx _
  · show win0_4.index t 0 * 256 + 1 * (y 0).val = 256 * t.val + (y 0).val
    rw [e8]; omega
  · show win0_4.index t 1 * 4096 + 1 * (y 1).val = (y 1).val
    rw [e9]; omega

/-- An index of the result is in point t's block iff each coordinate is in the block's range on its axis. -/
theorem mem_blk (t : Fin cfg0.N) (i : S8192x4096.Idx) :
    i ∈ ((cfg0.win 4).blk t).view.set ↔ ∀ d : Fin 2, win0_4.index t d * S256x4096.size d ≤ (i d).val
      ∧ (i d).val < win0_4.index t d * S256x4096.size d + S256x4096.size d := by
  show i ∈ ((View.whole main_v13).slice (win0_4.rect t)).set ↔ _
  rw [View.set_slice_whole, Rect.mem_set_unit]
  exact Iff.rfl

/-- The 32 row blocks tile the result: row r is in the block of point r / 256. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 32 := N_0
  have hlt : (i 0).val / 256 < cfg0.N := lt_of_lt_of_eq (by omega : (i 0).val / 256 < 32) hN.symm
  refine ⟨⟨(i 0).val / 256, hlt⟩, flush0_4 _, ?_⟩
  rw [mem_blk]
  obtain ⟨-, -, -, -, -, -, -, -, e8, e9⟩ := idx_facts ⟨(i 0).val / 256, hlt⟩
  intro d
  match d with
  | ⟨0, _⟩ =>
    show win0_4.index ⟨(i 0).val / 256, hlt⟩ (0 : Fin 2) * 256 ≤ (i 0).val
      ∧ (i 0).val < win0_4.index ⟨(i 0).val / 256, hlt⟩ (0 : Fin 2) * 256 + 256
    rw [e8]
    show (i 0).val / 256 * 256 ≤ (i 0).val ∧ (i 0).val < (i 0).val / 256 * 256 + 256
    omega
  | ⟨1, _⟩ =>
    show win0_4.index ⟨(i 0).val / 256, hlt⟩ (1 : Fin 2) * 4096 ≤ (i 1).val
      ∧ (i 1).val < win0_4.index ⟨(i 0).val / 256, hlt⟩ (1 : Fin 2) * 4096 + 4096
    rw [e9]
    omega

/-- THE RESULT ARRAY after the region is the layer. -/
theorem final (c : Dev nD) (hin : Inputs m c) : (dats m 0 c).arrAt 4 cfg0.N = result m c :=
  (dats m 0 c).arrAt_eq_of_cover 4 (result m c) (fun t _ => flushed_eq m c hin t) cover

/-- The reshape after the region lays the result array out as [4, 2048, 4096]. -/
theorem tail_eq (c : Dev nD) : Pipeline.afterTail₀ cfgs (dats m) 0 (V0 m) [hostOps1] c main_v14
    = shapeCast S4x2048x4096 ((dats m 0 c).arrAt 4 cfg0.N) shapeCasts_S8192x4096_S4x2048x4096 := by
  unfold Pipeline.afterTail₀
  show StableHlo.after hostOps1 _ (Proc.devRef .tc main_v14) = _
  after_results
  show shapeCast S4x2048x4096 (Pipeline.withArrays spec0 c (V0 m c) (fun w => (dats m 0 c).arrAt w cfg0.N)
    (Proc.devRef .tc (Pipeline.arrRef spec0 4))) shapeCasts_S8192x4096_S4x2048x4096 = _
  rw [Pipeline.withArrays_arr spec0 launch0.win.arr_inj c (V0 m c) (fun w => (dats m 0 c).arrAt w cfg0.N) 4]

/-! ## The run -/

/-- The layer of the arguments, laid out as [4, 2048, 4096]. -/
def value (c : Dev nD) : S4x2048x4096.Idx → EReal :=
  shapeCast S4x2048x4096
    (layer (shapeCast S8192x4096 (m ((c : Thread nD τ).loc main_arg0)) shapeCasts_S4x2048x4096_S8192x4096)
      (m ((c : Thread nD τ).loc main_arg1)) (m ((c : Thread nD τ).loc main_arg2)) (m ((c : Thread nD τ).loc main_arg3)))
    shapeCasts_S8192x4096_S4x2048x4096

/-- What the program's result buffer holds after the host tail. -/
theorem result_eq (c : Dev nD) (hin : Inputs m c) :
    Pipeline.afterTail₀ cfgs (dats m) 0 (V0 m) [hostOps1] c main_v14 = value m c := by
  rw [tail_eq, final m c hin]
  unfold value
  rw [← KHost.V_x]

/-- THE RUN, READ: every weakly fair execution terminates with the result at the layer of the arguments, laid out as
    [4, 2048, 4096], and the arguments unchanged. -/
theorem run (hin : ∀ c, Inputs m c) :
    θ_run defs (onTc (τ := τ) (main (F := Ideal))) ⟨m, fun _ => 0, ρ⟩ fun r => ∀ c : Dev nD,
      r.2.mem ((c.tc : Thread nD τ).loc main_v14) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (result_eq m c (hin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.VQ.KArray

end
-- ==== Proof.LibGatherCols.lean ====
/-
  A gather of whole columns read at an index.

  For an operand of C rows and N columns and a column of M start indices, the gather whose offset axis is the row axis,
  whose collapsed axis is the column axis and whose start index names the column — what  x[:, idx]  lowers to for a
  rank-2 x and a rank-1 idx — has at (c, n) the operand's entry in row c and in the column given by the n-th start index,
  read as a signed integer and clamped into [0, N − 1] (negative to 0, too large to N − 1). General in C, N, M and in the
  width of the index words; a program's own record of these dimension numbers is this one up to its proof field.
-/
import Idealize.ShloMosaic.PureOps.Ideal
import Idealize.ShloMosaic.Lib.ValueIdx

noncomputable section

namespace Idealize.ShloMosaic.GatherCols

open Idealize.ShloMosaic Idealize.ShloMosaic.ValueIdx

variable {α : Type}

/-- Those dimension numbers for an operand [C, N], start indices [M, 1] and result [C, M]; their conditions wf are decided
    on a program's literal shapes. -/
abbrev colDims (C N M : Nat) (wf : GatherDims.WF ⟨2, ![C, N]⟩ ⟨2, ![M, 1]⟩ ⟨2, ![C, M]⟩ [0] [1] [] [1] [] 1 ![C, 1]) :
    GatherDims ⟨2, ![C, N]⟩ ⟨2, ![M, 1]⟩ ⟨2, ![C, M]⟩ where
  offsetDims := [0]
  collapsedSliceDims := [1]
  operandBatchingDims := []
  startIndicesBatchingDims := []
  startIndexMap := [1]
  indexVectorDim := 1
  sliceSizes := ![C, 1]
  wf := wf

/-- Of the two operand axes the row axis is not the one the start index names. -/
private theorem zero_not_mem_one : (0 : Fin 2) ∉ ([1] : List (Fin 2)) := by decide

/-- Of the two operand axes the row axis alone is neither collapsed nor batching. -/
private theorem kept_eq : (List.finRange 2).filter (fun a : Fin 2 => decide (a ∉ ([1] ++ [] : List (Fin 2)))) = [0] := by decide

/-- The first offset axis, found through the position of the row axis among the kept axes, is the result's axis 0. -/
private theorem off_axis {C M : Nat} (c : Fin C) (n : Fin M) (l : List (Fin 2)) (hl : l = [0])
    (h : List.idxOf (0 : Fin 2) l < ([0] : List (Fin 2)).length) :
    (ix2 c n (([0] : List (Fin 2))[List.idxOf (0 : Fin 2) l]'h)).val = c.val := by
  subst hl; rfl

/-- THE GATHER READ AT (c, n): row c, column the n-th start index read signed and clamped into [0, N − 1]. -/
theorem gather_cols_apply {C N M w : Nat} (hN : 0 < N)
    (wf : GatherDims.WF ⟨2, ![C, N]⟩ ⟨2, ![M, 1]⟩ ⟨2, ![C, M]⟩ [0] [1] [] [1] [] 1 ![C, 1])
    (x : (⟨2, ![C, N]⟩ : Shape).Idx → α) (idx : IVec ⟨2, ![M, 1]⟩ w) (c : Fin C) (n : Fin M) :
    Host.gather (colDims C N M wf) x idx (ix2 c n)
      = x (ix2 c ⟨min (idx (ix2 n 0)).toInt.toNat (N - 1), by omega⟩) := by
  unfold Host.gather
  congr 1
  funext a
  refine Fin.ext ?_
  show (colDims C N M wf).start (ix2 c n) idx a + (colDims C N M wf).batchCoord (ix2 c n) a
      + (colDims C N M wf).offCoord (ix2 c n) a = _
  rw [GatherDims.batchCoord_eq_zero _ _ _ List.not_mem_nil]
  match a with
  | ⟨0, _⟩ =>
    -- the row axis: no start index, no batching; the offset coordinate is the row
    have h0 : (⟨0, by decide⟩ : Fin 2) ∉ (colDims C N M wf).startIndexMap := zero_not_mem_one
    have hs : (colDims C N M wf).sKept = [0] := kept_eq
    have hk : (⟨0, by decide⟩ : Fin 2) ∈ (colDims C N M wf).sKept := by
      rw [hs]; exact List.mem_singleton.mpr rfl
    unfold GatherDims.start
    rw [dif_neg h0]
    unfold GatherDims.offCoord
    rw [dif_pos hk]
    simp only [Nat.zero_add]
    exact off_axis c n _ hs _
  | ⟨1, _⟩ =>
    -- the column axis: collapsed, so the offset coordinate is zero and the start index alone names the column
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims C N M wf).startIndexMap from List.mem_singleton.mpr rfl)]
    have hsi : (colDims C N M wf).siIdx (ix2 c n) ⟨List.idxOf (⟨1, by decide⟩ : Fin 2) (colDims C N M wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl

end Idealize.ShloMosaic.GatherCols

end
-- ==== Proof.RefValue.lean ====
/-
  The reference computes the layer.

  The reference gathers the codebook rows named by the assignments, multiplies the flattened activations by that matrix,
  gathers the product's columns named by the assignments again, and adds the bias row.  Both gathers first normalise a
  negative index jnp's way and then read the index signed and clamped; on assignments below 128 all of that is the
  identity, so entry (t, n) of the result is the sum over j of x (t, j) * codebook (a j, a n), plus bias n.
-/
import proofs.«414625_j69415261438448_3_alg».proof.Proof.Gen.ReferenceIdeal.Read
import proofs.«414625_j69415261438448_3_alg».proof.Proof.Layer
import proofs.«414625_j69415261438448_3_alg».proof.Proof.Words
import proofs.«414625_j69415261438448_3_alg».proof.Proof.LibGatherRows
import proofs.«414625_j69415261438448_3_alg».proof.Proof.LibGatherCols
import Idealize.ShloMosaic.Lib.Pipeline.Value
import Idealize.ShloMosaic.Lib.ValueIdx

noncomputable section

namespace Cert.VQ.Ref

open Cert.ReferenceIdeal Cert.ReferenceIdeal.Gen Cert.ReferenceIdeal.Read
open Idealize.ShloMosaic Idealize.ShloMosaic.ValueIdx

/-- The row-gather's start indices: the assignments, a negative one moved up by 4096. -/
theorem rowIndex_apply {a : IVec S4096 32} (ha : InRange a) (j : Fin 4096) :
    val_main_v6 (F := Ideal) a (ix2 j (0 : Fin 1)) = a (ix1 j) := by
  rw [val_main_v6_apply, show idx_main_v6 (ix2 j (0 : Fin 1)) = ix1 j from funext fun d => match d with | ⟨0, _⟩ => rfl]
  show Scalar.select (IntOp.cmpi .slt (a (ix1 j)) 0#32) (IntOp.addi (a (ix1 j)) 4096#32) (a (ix1 j)) = _
  exact norm_small (ha j) _

/-- The column-gather's start indices: the assignments, a negative one moved up by 128. -/
theorem colIndex_apply {a : IVec S4096 32} (ha : InRange a) (n : Fin 4096) :
    val_main_v14 (F := Ideal) a (ix2 n (0 : Fin 1)) = a (ix1 n) := by
  rw [val_main_v14_apply, show idx_main_v14 (ix2 n (0 : Fin 1)) = ix1 n from funext fun d => match d with | ⟨0, _⟩ => rfl]
  show Scalar.select (IntOp.cmpi .slt (a (ix1 n)) 0#32) (IntOp.addi (a (ix1 n)) 128#32) (a (ix1 n)) = _
  exact norm_small (ha n) _

/-- Row j of the gathered codebook is the codebook's row a j. -/
theorem gathered_apply (qv : FVec Ideal S4096x128 .f32) {a : IVec S4096 32} (ha : InRange a) (j : Fin 4096) (k : Fin 128) :
    val_main_v7 (F := Ideal) qv a (ix2 j k) = qv (ix2 (rowOf a j) k) := by
  unfold val_main_v7
  rw [Cert.GatherRows.gather_rows2 (by decide) gather_S4096x128_S4096x1_S4096x128_1_0_n_n_0_1_1128 rfl rfl rfl rfl rfl qv _ j k]
  refine congrArg qv (congrArg (fun r => ix2 r k) (Fin.ext ?_))
  show min (val_main_v6 (F := Ideal) a (ix2 j (0 : Fin 1))).toInt.toNat (4096 - 1) = min (a (ix1 j)).toNat 4095
  rw [rowIndex_apply ha j, toInt_toNat_small (ha j)]

/-- The product at (t, k) is the projected activation. -/
theorem product_apply (x : FVec Ideal S4x2048x4096 .f32) (qv : FVec Ideal S4096x128 .f32) {a : IVec S4096 32}
    (ha : InRange a) (t : Fin 8192) (k : Fin 128) :
    val_main_v8 (F := Ideal) x qv a (ix2 t k) = proj (val_main_v0 (F := Ideal) x) qv a t k := by
  rw [val_main_v8_apply]
  refine Finset.sum_congr rfl fun j _ => ?_
  rw [show lidx_main_v8 (ix2 t k) j = ix2 t j from funext fun d => match d with | ⟨0, _⟩ => rfl | ⟨1, _⟩ => rfl,
    show ridx_main_v8 (ix2 t k) j = ix2 j k from funext fun d => match d with | ⟨0, _⟩ => rfl | ⟨1, _⟩ => rfl,
    gathered_apply qv ha j k]

/-- The column gather has the dimension numbers of "every row, the columns named by a list". -/
theorem colgather_eq : gather_S8192x128_S4096x1_S8192x4096_0_1_n_n_1_1_81921
    = GatherCols.colDims 8192 128 4096 Facts₀.gather_S8192x128_S4096x1_S8192x4096_0_1_n_n_1_1_81921_wf := rfl

/-- The expanded product at (t, n) is the projected activation at the column a n. -/
theorem expanded_apply (x : FVec Ideal S4x2048x4096 .f32) (qv : FVec Ideal S4096x128 .f32) {a : IVec S4096 32}
    (ha : InRange a) (t : Fin 8192) (n : Fin 4096) :
    val_main_v15 (F := Ideal) x qv a (ix2 t n) = proj (val_main_v0 (F := Ideal) x) qv a t (colOf a n) := by
  unfold val_main_v15
  rw [colgather_eq, GatherCols.gather_cols_apply (by decide) _ _ _ t n]
  refine (congrArg (fun r => val_main_v8 (F := Ideal) x qv a (ix2 t r)) (Fin.ext ?_)).trans
    (product_apply x qv ha t (colOf a n))
  show min (val_main_v14 (F := Ideal) a (ix2 n (0 : Fin 1))).toInt.toNat (128 - 1) = min (a (ix1 n)).toNat 127
  rw [colIndex_apply ha n, toInt_toNat_small (ha n)]

/-- The bias row repeated down the rows, at (t, n). -/
theorem biasrect_apply (b : FVec Ideal S4096 .f32) (t : Fin 8192) (n : Fin 4096) :
    val_main_v17 (F := Ideal) b (ix2 t n) = b (ix1 n) := by
  rw [val_main_v17_apply, val_main_v16_apply]
  exact congrArg b (funext fun d => match d with | ⟨0, _⟩ => rfl)

/-- THE REFERENCE'S RESULT on flattened rows is the layer. -/
theorem value (x : FVec Ideal S4x2048x4096 .f32) (qv : FVec Ideal S4096x128 .f32) (a : IVec S4096 32)
    (b : FVec Ideal S4096 .f32) (ha : InRange a) :
    val_main_v18 (F := Ideal) x qv a b = layer (val_main_v0 (F := Ideal) x) qv a b := by
  funext i
  obtain ⟨t, n, rfl⟩ : ∃ (t : Fin 8192) (n : Fin 4096), i = ix2 t n := ⟨i 0, i 1, eq_ix2 i⟩
  rw [val_main_v18_apply]
  show val_main_v15 (F := Ideal) x qv a (ix2 t n) + val_main_v17 (F := Ideal) b (ix2 t n) = _
  rw [expanded_apply x qv ha t n, biasrect_apply b t n]
  rfl

end Cert.VQ.Ref

end
-- ==== Proof.lean ====
/-
  A vector-quantised linear layer: the kernel against its jnp reference, over the extended reals.

  Every input column j of the flattened activations carries an assignment a j into a codebook of 128 columns; the
  layer is
      out (t, n) = (sum over j of x (t, j) * codebook (a j, a n)) + bias n.
  The reference gathers codebook rows by the assignments, multiplies, gathers the product's columns by the assignments
  and adds the bias.  The kernel clips the assignments into [0, 127], replaces the second gather by a product with the
  0/1 selection matrix [a n = k], and splits that product in two passes, the projected activations' high part and
  their residue; at the exact values the high part is the whole and the residue is q - q.

  Under the precondition (finite inputs, assignments in [0, 128)) the clip and the index normalisations are
  identities, the projected activations are real numbers, so the residue pass is zero and the selection product picks
  out the column a n: both programs end at the layer (Proof/Layer.lean states it; Proof/KernelArray.lean and
  Proof/RefValue.lean prove each program's result is it).  The frames of the two kernel programs are the generated
  ones; the reference's is its run with the result dropped; the one rewrite of the idealization is the identity of
  widening after narrowing at the exact values.
-/
import proofs.«414625_j69415261438448_3_alg».proof.Defs
import proofs.«414625_j69415261438448_3_alg».proof.Proof.Gen.Kernel
import proofs.«414625_j69415261438448_3_alg».proof.Proof.Gen.Kernel.Skeleton
import proofs.«414625_j69415261438448_3_alg».proof.Proof.Gen.Kernel.Launch
import proofs.«414625_j69415261438448_3_alg».proof.Proof.Gen.Kernel.Points
import proofs.«414625_j69415261438448_3_alg».proof.Proof.Gen.Kernel.Frame
import proofs.«414625_j69415261438448_3_alg».proof.Proof.Gen.KernelIdeal
import proofs.«414625_j69415261438448_3_alg».proof.Proof.Gen.KernelIdeal.Skeleton
import proofs.«414625_j69415261438448_3_alg».proof.Proof.Gen.KernelIdeal.Launch
import proofs.«414625_j69415261438448_3_alg».proof.Proof.Gen.KernelIdeal.Points
import proofs.«414625_j69415261438448_3_alg».proof.Proof.Gen.KernelIdeal.Frame
import proofs.«414625_j69415261438448_3_alg».proof.Proof.Gen.ReferenceIdeal
import proofs.«414625_j69415261438448_3_alg».proof.Proof.Gen.ReferenceIdeal.Run
import proofs.«414625_j69415261438448_3_alg».proof.Proof.Gen.ReferenceIdeal.Read
import proofs.«414625_j69415261438448_3_alg».proof.Proof.Gen.Pre_finite_inputs
import proofs.«414625_j69415261438448_3_alg».proof.Proof.PreRead
import proofs.«414625_j69415261438448_3_alg».proof.Proof.KernelArray
import proofs.«414625_j69415261438448_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Widening the narrowed projected activations back is the identity at the exact values. -/
theorem preserves : Cert.preserves_Kernel_KernelIdeal :=
  IdealRules.truncf_extf.statement Cert.KernelIdeal.S256x128 .f32 .bf16

/-- Both programs end at the layer of the arguments. -/
theorem algebraic : Cert.algebraic_KernelIdeal_ReferenceIdeal := by
  intro m ρ m' ρ' hpre hagree
  have hin : ∀ c, Cert.VQ.KArray.Inputs m c := fun c => Cert.VQ.pre_read _ _ _ _ (hpre c)
  refine ⟨fun c => Cert.VQ.KArray.value m c, Cert.VQ.KArray.run m ρ hin, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  rw [e0, e1, e2, e3]
  refine (Cert.ReferenceIdeal.Read.val_main_v19_eq _ _ _ _).trans ?_
  show shapeCast _ (Cert.ReferenceIdeal.Read.val_main_v18 (F := Ideal) _ _ _ _) _ = _
  rw [Cert.VQ.Ref.value _ _ _ _ (hin c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
